-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S50000x64 : Shape := ⟨2, ![50000, 64]⟩
abbrev S64x64 : Shape := ⟨2, ![64, 64]⟩
abbrev S64 : Shape := ⟨1, ![64]⟩
abbrev S1600000 : Shape := ⟨1, ![1600000]⟩
abbrev S_ : Shape := ⟨0, ![]⟩

class Facts : Prop where
  bcast_S_S1 : S_.BroadcastsInDim S1 (![] : Fin 0 → Fin S1.rank)
  reducesTo_S1_S_d0 : S1.ReducesTo [0] S_
  h_S_ : 0 < S_.numel
  bcast_S_S50000x64 : S_.BroadcastsInDim S50000x64 (![] : Fin 0 → Fin S50000x64.rank)
  reducesTo_S50000x64_S_d0_1 : S50000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : IVec S1600000 32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_c_6 : IVec S_ 32 := constantI S_ 32 4294917296#32
  let main_v19 : IVec S1600000 32 := broadcastInDim S1600000 ![] bcast_S_S1600000 main_c_6
  let main_v20 : IVec S1600000 1 := cmpi .sge main_arg4 main_v19
  let main_c_7 : IVec S_ 1 := constantI S_ 1 1#1
  let main_v21 : IVec S_ 1 := (fun x v => Host.reduce IntOp.andi x v reducesTo_S1600000_S_d0 h_S_) main_v20 main_c_7
  let main_v22 : IVec S_ 1 := andi main_v18 main_v21
  let main_c_8 : IVec S_ 32 := constantI S_ 32 50000#32
  let main_v23 : IVec S1600000 32 := broadcastInDim S1600000 ![] bcast_S_S1600000 main_c_8
  let main_v24 : IVec S1600000 1 := cmpi .slt main_arg4 main_v23
  let main_c_9 : IVec S_ 1 := constantI S_ 1 1#1
  let main_v25 : IVec S_ 1 := (fun x v => Host.reduce IntOp.andi x v reducesTo_S1600000_S_d0 h_S_) main_v24 main_c_9
  let main_v26 : IVec S_ 1 := andi main_v22 main_v25
  main_v26

def fn {F : FTy → Type} [FloatOps F] (main_arg0 : FVec F S1 .f32) (main_arg1 : FVec F S50000x64 .f32) (main_arg2 : FVec F S64x64 .f32) (main_arg3 : FVec F S64 .f32) (main_arg4 : IVec S1600000 32) (main_arg5 : IVec S1600000 32) : IVec S_ 1 :=
  let main_v0 : FVec F S1 .f32 := Host.absf main_arg0
  let main_cst : FVec F S_ .f32 := constant S_ .f32 0x7F800000#32
  let main_v1 : FVec F S1 .f32 := broadcastInDim S1 ![] bcast_S_S1 main_cst
  let main_v2 : IVec S1 1 := cmpf .olt main_v0 main_v1
  let main_c : IVec S_ 1 := constantI S_ 1 1#1
  let main_v3 : IVec S_ 1 := (fun x v => Host.reduce IntOp.andi x v reducesTo_S1_S_d0 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S1 : Shape := ⟨1, ![1]⟩
abbrev S50000x64 : Shape := ⟨2, ![50000, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1x64 : Shape := ⟨2, ![1, 64]⟩
abbrev S10000x64 : Shape := ⟨2, ![10000, 64]⟩
abbrev S10000x1 : Shape := ⟨2, ![10000, 1]⟩
abbrev S1x1 : Shape := ⟨2, ![1, 1]⟩
abbrev S1600000x64 : Shape := ⟨2, ![1600000, 64]⟩

abbrev nBuf : Space → Nat
  | .hbm => 54
  | .vmem => 14
  | .smem => 0
  | _ => 0

abbrev bufTy : (tb : Table) → Fin (tcTables nBuf tb) → BufTy
  | .hbm, ⟨0, _⟩ => ⟨S1, .f32⟩
  | .hbm, ⟨1, _⟩ => ⟨S50000x64, .f32⟩
  | .hbm, ⟨2, _⟩ => ⟨S64x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S50000, .f32⟩
  | .hbm, ⟨10, _⟩ => ⟨S1600000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .i1⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S1x64, .f32⟩
  | .hbm, ⟨25, _⟩ => ⟨S50000x64, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1, .i32⟩
  | .hbm, ⟨35, _⟩ => ⟨S_, .i32⟩
  | .hbm, ⟨36, _⟩ => ⟨S1600000x1, .i32⟩
  | .hbm, ⟨37, _⟩ => ⟨S1600000x1, .i1⟩
  | .hbm, ⟨38, _⟩ => ⟨S1x1, .i32⟩
  | .hbm, ⟨39, _⟩ => ⟨S1600000x1, .i32⟩
  | .hbm, ⟨40, _⟩ => ⟨S1600000x1, .i1⟩
  | .hbm, ⟨41, _⟩ => ⟨S1600000x1, .i1⟩
  | .hbm, ⟨42, _⟩ => ⟨S_, .i1⟩
  | .hbm, ⟨43, _⟩ => ⟨S1600000, .i1⟩
  | .hbm, ⟨44, _⟩ => ⟨S1600000x64, .f32⟩
  | .hbm, ⟨45, _⟩ => ⟨S1600000x64, .i1⟩
  | .hbm, ⟨46, _⟩ => ⟨S_, .f32⟩
  | .hbm, ⟨47, _⟩ => ⟨S1600000x64, .f32⟩
  | .hbm, ⟨48, _⟩ => ⟨S1600000x64, .f32⟩
  | .hbm, ⟨49, _⟩ => ⟨S_, .f32⟩
  | .hbm, ⟨50, _⟩ => ⟨S50000x64, .f32⟩
  | .hbm, ⟨51, _⟩ => ⟨S1600000x1, .i32⟩
  | .hbm, ⟨52, _⟩ => ⟨S50000x64, .f32⟩
  | .hbm, ⟨53, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x1, .f32⟩
  | .local _ .vmem, ⟨4, _⟩ => ⟨S10000x1, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x1, .f32⟩
  | .local _ .vmem, ⟨10, _⟩ => ⟨S10000x1, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v13 : Ref sig .tc := ⟨.hbm, 48, rfl⟩
abbrev main_cst_4 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S50000x64 : S_.BroadcastsInDim S50000x64 (![] : Fin 0 → Fin S50000x64.rank)
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S50000_S1600000x1_S1600000_n_0_0_1_wf : ScatterDims.WF S50000 S1600000x1 S1600000 [] [0] [0] 1
  dot_S10000x64_S64x64_S10000x64_1_0_0_1_n_n_wf : DotDims.WF S10000x64 S64x64 S10000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S50000x1.size a
  hwx0_2 : ∀ i : grid0.Coords, EltTy.bits .f32 = 32 ∨ (Rect.block (s := S50000x1) S10000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S50000x64.size a
  hwx0_3 : ∀ i : grid0.Coords, EltTy.bits .f32 = 32 ∨ (Rect.block (s := S50000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S50000x1.size a
  hwx1_1 : ∀ i : grid1.Coords, EltTy.bits .f32 = 32 ∨ (Rect.block (s := S50000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S50000x64.size a
  hwx1_3 : ∀ i : grid1.Coords, EltTy.bits .f32 = 32 ∨ (Rect.block (s := S50000x64) S10000x64.size (cc1_transform_3 i) (hinb1_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

abbrev win0_0 : Pipeline.Window sig grid0 :=
  Pipeline.Window.ofSpec (Memref.whole main_arg1) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S1 : Shape := ⟨1, ![1]⟩
abbrev S50000x64 : Shape := ⟨2, ![50000, 64]⟩
abbrev S64x64 : Shape := ⟨2, ![64, 64]⟩
abbrev S64 : Shape := ⟨1, ![64]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x64 : Shape := ⟨2, ![1600000, 64]⟩
abbrev S1x64 : Shape := ⟨2, ![1, 64]⟩

abbrev nBuf : Space → Nat
  | .hbm => 59
  | .vmem => 0
  | .smem => 0
  | _ => 0

abbrev bufTy : (tb : Table) → Fin (tcTables nBuf tb) → BufTy
  | .hbm, ⟨0, _⟩ => ⟨S1, .f32⟩
  | .hbm, ⟨1, _⟩ => ⟨S50000x64, .f32⟩
  | .hbm, ⟨2, _⟩ => ⟨S64x64, .f32⟩
  | .hbm, ⟨3, _⟩ => ⟨S64, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S50000, .f32⟩
  | .hbm, ⟨10, _⟩ => ⟨S1600000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .i1⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S50000x64, .f32⟩
  | .hbm, ⟨25, _⟩ => ⟨S50000x64, .f32⟩
  | .hbm, ⟨26, _⟩ => ⟨S50000x64, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .f32⟩
  | .hbm, ⟨36, _⟩ => ⟨S_, .f32⟩
  | .hbm, ⟨37, _⟩ => ⟨S50000x64, .f32⟩
  | .hbm, ⟨38, _⟩ => ⟨S1600000x1, .i32⟩
  | .hbm, ⟨39, _⟩ => ⟨S50000x64, .f32⟩
  | .hbm, ⟨40, _⟩ => ⟨S50000x64, .f32⟩
  | .hbm, ⟨41, _⟩ => ⟨S50000x64, .f32⟩
  | .hbm, ⟨42, _⟩ => ⟨S1x64, .f32⟩
  | .hbm, ⟨43, _⟩ => ⟨S50000x64, .f32⟩
  | .hbm, ⟨44, _⟩ => ⟨S50000x64, .f32⟩
  | .hbm, ⟨45, _⟩ => ⟨S_, .f32⟩
  | .hbm, ⟨46, _⟩ => ⟨S50000x64, .f32⟩
  | .hbm, ⟨47, _⟩ => ⟨S50000x64, .f32⟩
  | .hbm, ⟨48, _⟩ => ⟨S50000x64, .f32⟩
  | .hbm, ⟨49, _⟩ => ⟨S50000x64, .f32⟩
  | .hbm, ⟨50, _⟩ => ⟨S50000x64, .i1⟩
  | .hbm, ⟨51, _⟩ => ⟨S50000x64, .f32⟩
  | .hbm, ⟨52, _⟩ => ⟨S50000x64, .f32⟩
  | .hbm, ⟨53, _⟩ => ⟨S50000x64, .f32⟩
  | .hbm, ⟨54, _⟩ => ⟨S50000x64, .f32⟩
  | .hbm, ⟨55, _⟩ => ⟨S50000x64, .f32⟩
  | .hbm, ⟨56, _⟩ => ⟨S50000x64, .f32⟩
  | .hbm, ⟨57, _⟩ => ⟨S50000x64, .f32⟩
  | .hbm, ⟨58, _⟩ => ⟨S50000x64, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_v29 : Ref sig .tc := ⟨.hbm, 58, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S1600000x1_S1600000_n_0_0_1_wf : ScatterDims.WF S50000 S1600000x1 S1600000 [] [0] [0] 1
  dot_S50000x64_S64x64_S50000x64_1_0_0_1_n_n_wf : DotDims.WF S50000x64 S64x64 S50000x64 [1] [0] [0] [1] [] []
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf

class Facts : Prop extends Facts₀ where

variable [Facts]
-- ==== Proof.TakeDefs.lean ====
/-
  The row gather of the message-passing step, written once as pure functions of the source-index vector.

  A source index is first wrapped the way an array index is (a negative index counts from the end: `src + 50000`),
  then rows of the table are gathered at the wrapped indices; a row whose wrapped index still falls outside
  `[0, 49999]` is replaced by the fill word. `inRange` is the per-edge test "the wrapped index is inside the table".
-/
import proofs.«422145_j6794638262306_1_alg».proof.Proof.Gen.KernelIdeal

noncomputable section

namespace Cert.KernelIdeal.Take

open Cert.KernelIdeal Cert.KernelIdeal.Facts₀ Cert.KernelIdeal.Facts Idealize.ShloMosaic

variable {F : FTy → Type} [FloatOps F]

/-- The source indices wrapped (`src < 0 ↦ src + 50000`), laid out as a column of start indices. -/
def wrapIdx (src : (⟨S1600000, .i32⟩ : BufTy).Contents (Elt F)) : (⟨S1600000x1, .i32⟩ : BufTy).Contents (Elt F) :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 50000#32))) src)

/-- Per edge: is the wrapped index inside the table, `0 ≤ · ≤ 49999`? (The conjunction over the column's one entry.) -/
def inRange (src : (⟨S1600000, .i32⟩ : BufTy).Contents (Elt F)) : (⟨S1600000, .i1⟩ : BufTy).Contents (Elt F) :=
  Host.reduce IntOp.andi
    (andi (cmpi .sge (wrapIdx (F := F) src) (broadcastInDim S1600000x1 ![] bcast_S_S1600000x1 (constantI S_ 32 0#32)))
      (cmpi .sle (wrapIdx (F := F) src)
        (broadcastInDim S1600000x1 ![0, 1] bcast_S1x1_S1600000x1_0_1 (broadcastInDim S1x1 ![1] bcast_S1_S1x1_1 (constantI S1 32 49999#32)))))
    (constantI S_ 1 1#1) reducesTo_S1600000x1_S1600000_d1 h_S_

/-- The gathered rows: row `e` is row `wrapIdx src e` of the table where that index is in range, the fill word elsewhere. -/
def takeRows (tbl : (⟨S50000x64, .f32⟩ : BufTy).Contents (Elt F)) (src : (⟨S1600000, .i32⟩ : BufTy).Contents (Elt F)) :
    (⟨S1600000x64, .f32⟩ : BufTy).Contents (Elt F) :=
  select (broadcastInDim S1600000x64 ![0] bcast_S1600000_S1600000x64_0 (inRange (F := F) src))
    (Host.gather gather_S50000x64_S1600000x1_S1600000x64_1_0_n_n_0_1_164 tbl (wrapIdx (F := F) src))
    (broadcastInDim S1600000x64 ![] bcast_S_S1600000x64 (constant S_ .f32 0x7FC00000#32))

end Cert.KernelIdeal.Take

end
-- ==== Proof.HostDefs.lean ====
/-
  The host operations around the two kernels, written once as pure functions.

  Before the first kernel the host counts every node's incoming edges (`degree`: a scatter-add of ones along the
  destination indices), turns the count into the normalisation factor rsqrt(max(deg, 1)) where deg > 0 and 0 elsewhere
  (`normVec`), and lays it out as a column (`normCol`); the bias becomes a row (`biasRow`). Between the kernels the
  gathered rows are added up per destination node (`aggregate`).
-/
import proofs.«422145_j6794638262306_1_alg».proof.Proof.Gen.KernelIdeal

noncomputable section

namespace Cert.KernelIdeal.Fold

open Cert.KernelIdeal Cert.KernelIdeal.Gen Idealize.ShloMosaic

variable {F : FTy → Type} [FloatOps F]

/-- Every node's in-degree: one for each edge that points at it. -/
def degree (dst : (⟨S1600000, .i32⟩ : BufTy).Contents (Elt F)) : (⟨S50000, .f32⟩ : BufTy).Contents (Elt F) :=
  Host.scatterAdd scatter_S50000_S1600000x1_S1600000_n_0_0_1
    (broadcastInDim S50000 ![] bcast_S_S50000 (constant S_ .f32 0x00000000#32))
    (broadcastInDim S1600000x1 ![0] bcast_S1600000_S1600000x1_0 dst)
    (broadcastInDim S1600000 ![] bcast_S_S1600000 (constant S_ .f32 0x3F800000#32))

/-- The normalisation factor of every node: rsqrt(max(deg, 1)) where the degree is positive, 0 for an isolated node. -/
def normVec (dst : (⟨S1600000, .i32⟩ : BufTy).Contents (Elt F)) : (⟨S50000, .f32⟩ : BufTy).Contents (Elt F) :=
  select (cmpf (F := F) .ogt (degree dst) (broadcastInDim S50000 ![] bcast_S_S50000 (constant S_ .f32 0x00000000#32)))
    (Host.rsqrt (maximumf (degree dst) (broadcastInDim S50000 ![] bcast_S_S50000 (constant S_ .f32 0x3F800000#32))))
    (broadcastInDim S50000 ![] bcast_S_S50000 (id (constant S_ .f32 0x00000000#32)))

/-- The factors as a column, the layout both kernels read them in. -/
def normCol (dst : (⟨S1600000, .i32⟩ : BufTy).Contents (Elt F)) : (⟨S50000x1, .f32⟩ : BufTy).Contents (Elt F) :=
  shapeCast S50000x1 (normVec dst) shapeCasts_S50000_S50000x1

/-- The bias as a row. -/
def biasRow (b : (⟨S64, .f32⟩ : BufTy).Contents (Elt F)) : (⟨S1x64, .f32⟩ : BufTy).Contents (Elt F) :=
  shapeCast S1x64 b shapeCasts_S64_S1x64

/-- The messages summed per destination node. -/
def aggregate (dst : (⟨S1600000, .i32⟩ : BufTy).Contents (Elt F)) (rows : (⟨S1600000x64, .f32⟩ : BufTy).Contents (Elt F)) :
    (⟨S50000x64, .f32⟩ : BufTy).Contents (Elt F) :=
  Host.scatterAdd scatter_S50000x64_S1600000x1_S1600000x64_1_0_0_1
    (broadcastInDim S50000x64 ![] bcast_S_S50000x64 (constant S_ .f32 0x00000000#32))
    (broadcastInDim S1600000x1 ![0] bcast_S1600000_S1600000x1_0 dst) rows

end Cert.KernelIdeal.Fold

end
-- ==== Proof.FoldStretches.lean ====
/-
  The two host stretches between the kernels, each read back over ANY contents `U` of the buffers before it:
  the row gather leaves the gathered rows (`Take.takeRows`) of the table buffer at the source indices, the
  scatter-add leaves the per-node sums (`Fold.aggregate`) of those rows; neither writes the destination indices, the
  factor column or the bias row.
-/
import proofs.«422145_j6794638262306_1_alg».proof.Proof.Gen.KernelIdeal.Launch
import proofs.«422145_j6794638262306_1_alg».proof.Proof.TakeDefs
import proofs.«422145_j6794638262306_1_alg».proof.Proof.HostDefs
import Idealize.ShloMosaic.Lib.StableHlo.Run
import Idealize.ShloMosaic.Lib.Pipeline.Frame

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]
variable (U : Valuation τ sig (Elt F))

/-- The first eight operations of the gather's stretch: they wrap the source indices and lay them out as a column. -/
abbrev takePre : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S1600000, .i32⟩) (broadcastInDim S1600000 ![] bcast_S_S1600000),
    StableHlo.TRef.binary (.of main_arg4 : StableHlo.TRef sig ⟨S1600000, .i32⟩) (.of main_call1_v0 : StableHlo.TRef sig ⟨S1600000, .i32⟩) (.of main_call1_v1 : StableHlo.TRef sig ⟨S1600000, .i1⟩) (cmpi .slt),
    StableHlo.TRef.nullary (.of main_call1_c_0 : StableHlo.TRef sig ⟨S_, .i32⟩) (constantI S_ 32 50000#32),
    StableHlo.TRef.unary (.of main_call1_c_0 : StableHlo.TRef sig ⟨S_, .i32⟩) (.of main_call1_v2 : StableHlo.TRef sig ⟨S1600000, .i32⟩) (broadcastInDim S1600000 ![] bcast_S_S1600000),
    StableHlo.TRef.binary (.of main_arg4 : StableHlo.TRef sig ⟨S1600000, .i32⟩) (.of main_call1_v2 : StableHlo.TRef sig ⟨S1600000, .i32⟩) (.of main_call1_v3 : StableHlo.TRef sig ⟨S1600000, .i32⟩) addi,
    StableHlo.TRef.ternary (.of main_call1_v1 : StableHlo.TRef sig ⟨S1600000, .i1⟩) (.of main_call1_v3 : StableHlo.TRef sig ⟨S1600000, .i32⟩) (.of main_arg4 : StableHlo.TRef sig ⟨S1600000, .i32⟩) (.of main_call1_v4 : StableHlo.TRef sig ⟨S1600000, .i32⟩) select,
    StableHlo.TRef.unary main_call1_call0.v0 (.of main_call1_v5 : StableHlo.TRef sig ⟨S1600000x1, .i32⟩) (broadcastInDim S1600000x1 ![0] bcast_S1600000_S1600000x1_0) ]
/-- The next ten: the per-edge test that the wrapped index lies in the table. -/
abbrev takeMid : List (HloOp τ sig (Elt F)) :=
  [ StableHlo.TRef.nullary (.of main_call1_c_1 : StableHlo.TRef sig ⟨S1, .i32⟩) (constantI S1 32 49999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S1600000x1, .i32⟩) (broadcastInDim S1600000x1 ![] bcast_S_S1600000x1),
    StableHlo.TRef.binary (.of main_call1_v5 : StableHlo.TRef sig ⟨S1600000x1, .i32⟩) (.of main_call1_v6 : StableHlo.TRef sig ⟨S1600000x1, .i32⟩) (.of main_call1_v7 : StableHlo.TRef sig ⟨S1600000x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S1600000x1, .i32⟩) (broadcastInDim S1600000x1 ![0, 1] bcast_S1x1_S1600000x1_0_1),
    StableHlo.TRef.binary (.of main_call1_v5 : StableHlo.TRef sig ⟨S1600000x1, .i32⟩) (.of main_call1_v9 : StableHlo.TRef sig ⟨S1600000x1, .i32⟩) (.of main_call1_v10 : StableHlo.TRef sig ⟨S1600000x1, .i1⟩) (cmpi .sle),
    StableHlo.TRef.binary (.of main_call1_v7 : StableHlo.TRef sig ⟨S1600000x1, .i1⟩) (.of main_call1_v10 : StableHlo.TRef sig ⟨S1600000x1, .i1⟩) (.of main_call1_v11 : StableHlo.TRef sig ⟨S1600000x1, .i1⟩) andi,
    StableHlo.TRef.nullary (.of main_call1_c_3 : StableHlo.TRef sig ⟨S_, .i1⟩) (constantI S_ 1 1#1),
    StableHlo.TRef.binary (.of main_call1_v11 : StableHlo.TRef sig ⟨S1600000x1, .i1⟩) (.of main_call1_c_3 : StableHlo.TRef sig ⟨S_, .i1⟩) (.of main_call1_v12 : StableHlo.TRef sig ⟨S1600000, .i1⟩) (fun x v => Host.reduce IntOp.andi x v reducesTo_S1600000x1_S1600000_d1 h_S_) ]
/-- The last five: the gather at the wrapped indices, and the select of it against the fill under the test. -/
abbrev takePost : List (HloOp τ sig (Elt F)) :=
  [ StableHlo.TRef.binary (.of main_v12 : StableHlo.TRef sig ⟨S50000x64, .f32⟩) (.of main_call1_v5 : StableHlo.TRef sig ⟨S1600000x1, .i32⟩) (.of main_call1_v13 : StableHlo.TRef sig ⟨S1600000x64, .f32⟩) (fun x i => Host.gather gather_S50000x64_S1600000x1_S1600000x64_1_0_n_n_0_1_164 x i),
    StableHlo.TRef.unary (.of main_call1_v12 : StableHlo.TRef sig ⟨S1600000, .i1⟩) (.of main_call1_v14 : StableHlo.TRef sig ⟨S1600000x64, .i1⟩) (broadcastInDim S1600000x64 ![0] bcast_S1600000_S1600000x64_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S1600000x64, .f32⟩) (broadcastInDim S1600000x64 ![] bcast_S_S1600000x64),
    StableHlo.TRef.ternary (.of main_call1_v14 : StableHlo.TRef sig ⟨S1600000x64, .i1⟩) (.of main_call1_v13 : StableHlo.TRef sig ⟨S1600000x64, .f32⟩) (.of main_call1_v15 : StableHlo.TRef sig ⟨S1600000x64, .f32⟩) (.of main_v13 : StableHlo.TRef sig ⟨S1600000x64, .f32⟩) select ]
/-- The stretch is the three pieces in a row. -/
theorem hostOps1_split : (hostOps1 : List (HloOp τ sig (Elt F))) = takePre ++ (takeMid ++ takePost) := rfl

/-- After the first piece the index column holds the wrapped source indices. -/
theorem pre_col : StableHlo.after takePre U (Proc.devRef .tc main_call1_v5) = Take.wrapIdx (U (Proc.devRef .tc main_arg4)) := by
  after_results
  rfl

/-- The first piece does not write the table. -/
theorem pre_keeps_tbl : StableHlo.after takePre U (Proc.devRef .tc main_v12) = U (Proc.devRef .tc main_v12) :=
  StableHlo.after_of_forall_not_mem _ _ (List.forall_iff_forall_mem.mp (by
    simp only [takePre, List.Forall, StableHlo.nullary_writes, StableHlo.unary_writes, StableHlo.binary_writes,
      StableHlo.ternary_writes, Finset.mem_singleton]
    repeat' apply And.intro
    all_goals exact StableHlo.devRef_ne_of_ne (by decide)))

/-- After the second piece, from any contents, the mask buffer holds the per-edge test of the index column: both compares,
    their conjunction, and its reduction over the column's one entry. -/
theorem mid_mask : StableHlo.after takeMid U (Proc.devRef .tc main_call1_v12)
    = Host.reduce IntOp.andi
        (andi (cmpi .sge (U (Proc.devRef .tc main_call1_v5)) (broadcastInDim S1600000x1 ![] bcast_S_S1600000x1 (constantI S_ 32 0#32)))
          (cmpi .sle (U (Proc.devRef .tc main_call1_v5))
            (broadcastInDim S1600000x1 ![0, 1] bcast_S1x1_S1600000x1_0_1 (broadcastInDim S1x1 ![1] bcast_S1_S1x1_1 (constantI S1 32 49999#32)))))
        (constantI S_ 1 1#1) reducesTo_S1600000x1_S1600000_d1 h_S_ := by
  after_results
  simp only [TRef.ofBuf, TRef.toBuf, cast_eq]

/-- The second piece writes neither the index column nor the table. -/
theorem mid_keeps_col : StableHlo.after takeMid U (Proc.devRef .tc main_call1_v5) = U (Proc.devRef .tc main_call1_v5) :=
  StableHlo.after_of_forall_not_mem _ _ (List.forall_iff_forall_mem.mp (by
    simp only [takeMid, List.Forall, StableHlo.nullary_writes, StableHlo.unary_writes, StableHlo.binary_writes,
      StableHlo.ternary_writes, Finset.mem_singleton]
    repeat' apply And.intro
    all_goals exact StableHlo.devRef_ne_of_ne (by decide)))
theorem mid_keeps_tbl : StableHlo.after takeMid U (Proc.devRef .tc main_v12) = U (Proc.devRef .tc main_v12) :=
  StableHlo.after_of_forall_not_mem _ _ (List.forall_iff_forall_mem.mp (by
    simp only [takeMid, List.Forall, StableHlo.nullary_writes, StableHlo.unary_writes, StableHlo.binary_writes,
      StableHlo.ternary_writes, Finset.mem_singleton]
    repeat' apply And.intro
    all_goals exact StableHlo.devRef_ne_of_ne (by decide)))

/-- After the third piece, from any contents, the result buffer holds the gather at the index column, selected against the fill under the mask. -/
theorem post_rows : StableHlo.after takePost U (Proc.devRef .tc main_v13)
    = select (broadcastInDim S1600000x64 ![0] bcast_S1600000_S1600000x64_0 (U (Proc.devRef .tc main_call1_v12)))
        (Host.gather gather_S50000x64_S1600000x1_S1600000x64_1_0_n_n_0_1_164 (U (Proc.devRef .tc main_v12)) (U (Proc.devRef .tc main_call1_v5)))
        (broadcastInDim S1600000x64 ![] bcast_S_S1600000x64 (constant S_ .f32 0x7FC00000#32)) := by
  after_results
  simp only [TRef.ofBuf, TRef.toBuf, cast_eq]

/-- After the gather's stretch its result buffer holds the gathered rows of the table at the source indices. -/
theorem take_rows : StableHlo.after hostOps1 U (Proc.devRef .tc main_v13)
    = Take.takeRows (U (Proc.devRef .tc main_v12)) (U (Proc.devRef .tc main_arg4)) := by
  rw [hostOps1_split, StableHlo.after_append, StableHlo.after_append,
    post_rows (StableHlo.after takeMid (StableHlo.after takePre U)), mid_mask (StableHlo.after takePre U),
    mid_keeps_col (StableHlo.after takePre U), mid_keeps_tbl (StableHlo.after takePre U), pre_col U, pre_keeps_tbl U]
  rfl

/-- The gather's stretch writes none of these. -/
theorem take_keeps_dst : StableHlo.after hostOps1 U (Proc.devRef .tc main_arg5) = U (Proc.devRef .tc main_arg5) :=
  StableHlo.after_of_forall_not_mem _ _ (List.forall_iff_forall_mem.mp (by
    simp only [hostOps1, List.Forall, StableHlo.nullary_writes, StableHlo.unary_writes, StableHlo.binary_writes,
      StableHlo.ternary_writes, Finset.mem_singleton]
    repeat' apply And.intro
    all_goals exact StableHlo.devRef_ne_of_ne (by decide)))
theorem take_keeps_norm : StableHlo.after hostOps1 U (Proc.devRef .tc main_v10) = U (Proc.devRef .tc main_v10) :=
  StableHlo.after_of_forall_not_mem _ _ (List.forall_iff_forall_mem.mp (by
    simp only [hostOps1, List.Forall, StableHlo.nullary_writes, StableHlo.unary_writes, StableHlo.binary_writes,
      StableHlo.ternary_writes, Finset.mem_singleton]
    repeat' apply And.intro
    all_goals exact StableHlo.devRef_ne_of_ne (by decide)))
theorem take_keeps_bias : StableHlo.after hostOps1 U (Proc.devRef .tc main_v11) = U (Proc.devRef .tc main_v11) :=
  StableHlo.after_of_forall_not_mem _ _ (List.forall_iff_forall_mem.mp (by
    simp only [hostOps1, List.Forall, StableHlo.nullary_writes, StableHlo.unary_writes, StableHlo.binary_writes,
      StableHlo.ternary_writes, Finset.mem_singleton]
    repeat' apply And.intro
    all_goals exact StableHlo.devRef_ne_of_ne (by decide)))

/-- After the scatter-add's stretch its result buffer holds the per-node sums of the rows. -/
theorem sum_rows : StableHlo.after hostOps1_1 U (Proc.devRef .tc main_v16)
    = aggregate (U (Proc.devRef .tc main_arg5)) (U (Proc.devRef .tc main_v13)) := by
  after_results
  rfl

/-- The scatter-add's stretch writes neither the factor column nor the bias row. -/
theorem sum_keeps_norm : StableHlo.after hostOps1_1 U (Proc.devRef .tc main_v10) = U (Proc.devRef .tc main_v10) :=
  StableHlo.after_of_forall_not_mem _ _ (List.forall_iff_forall_mem.mp (by
    simp only [hostOps1_1, List.Forall, StableHlo.nullary_writes, StableHlo.unary_writes, StableHlo.binary_writes,
      StableHlo.ternary_writes, Finset.mem_singleton]
    repeat' apply And.intro
    all_goals exact StableHlo.devRef_ne_of_ne (by decide)))
theorem sum_keeps_bias : StableHlo.after hostOps1_1 U (Proc.devRef .tc main_v11) = U (Proc.devRef .tc main_v11) :=
  StableHlo.after_of_forall_not_mem _ _ (List.forall_iff_forall_mem.mp (by
    simp only [hostOps1_1, List.Forall, StableHlo.nullary_writes, StableHlo.unary_writes, StableHlo.binary_writes,
      StableHlo.ternary_writes, Finset.mem_singleton]
    repeat' apply And.intro
    all_goals exact StableHlo.devRef_ne_of_ne (by decide)))

end Cert.KernelIdeal.Fold

end
-- ==== Proof.HostSide.lean ====
/-
  The contents of the buffers at each boundary of the program, read back stretch by stretch: what each kernel is
  entered with, as the host-side functions of the arguments (Proof/HostDefs.lean, Proof/TakeDefs.lean). No stretch
  and no kernel writes an argument array; a kernel changes its output array only.
-/
import proofs.«422145_j6794638262306_1_alg».proof.Proof.Gen.KernelIdeal.Frame
import proofs.«422145_j6794638262306_1_alg».proof.Proof.TakeDefs
import proofs.«422145_j6794638262306_1_alg».proof.Proof.HostDefs
import proofs.«422145_j6794638262306_1_alg».proof.Proof.FoldStretches
import Idealize.ShloMosaic.Lib.StableHlo.Run
import Idealize.ShloMosaic.Lib.Pipeline.Value

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]

variable (m : (ℓ : Loc nD τ sig) → Buf (Elt F) ℓ) (ρ : Dev nD → PrngReg)

/-! ## At the first kernel's entry -/

theorem W3_x (c : Dev nD) : W3 m ρ c (Proc.devRef .tc main_arg1) = m ((c : Thread nD τ).loc main_arg1) := by
  after_results

theorem W3_w (c : Dev nD) : W3 m ρ c (Proc.devRef .tc main_arg2) = m ((c : Thread nD τ).loc main_arg2) := by
  after_results

theorem W3_src (c : Dev nD) : W3 m ρ c (Proc.devRef .tc main_arg4) = m ((c : Thread nD τ).loc main_arg4) := by
  after_results

theorem W3_dst (c : Dev nD) : W3 m ρ c (Proc.devRef .tc main_arg5) = m ((c : Thread nD τ).loc main_arg5) := by
  after_results

theorem W3_norm (c : Dev nD) : W3 m ρ c (Proc.devRef .tc main_v10) = normCol (m ((c : Thread nD τ).loc main_arg5)) := by
  after_results
  simp only [TRef.ofBuf, TRef.toBuf, cast_eq]
  rfl

theorem W3_bias (c : Dev nD) : W3 m ρ c (Proc.devRef .tc main_v11) = biasRow (m ((c : Thread nD τ).loc main_arg3)) := by
  after_results
  rfl

/-! ## At the first kernel's exit: its output array is what its five write-backs leave; everything else is as entered -/

theorem W4_out (c : Dev nD) : W4 m ρ c (Proc.devRef .tc main_v12) = (dat0 (V3 m ρ) c).arrAt 3 cfg0.N :=
  W4_arr m ρ c 3

theorem W4_norm (c : Dev nD) : W4 m ρ c (Proc.devRef .tc main_v10) = W3 m ρ c (Proc.devRef .tc main_v10) := by
  refine (W4_arr m ρ c 2).trans ?_
  funext i
  have hnf : ∀ t : Fin cfg0.N, (cfg0.win 2).flush t = false :=
    (by decide +kernel : ∀ t : Fin grid0.N, win0_2.flush t = false)
  refine ((dat0 (V3 m ρ) c).arrAt_apply_of_forall_not_mem 2 cfg0.N i fun t _ hf => ?_).trans ?_
  · rw [hnf t] at hf; exact absurd hf (by decide)
  · exact congrFun (A_eq0 (V3 m ρ) c 2) i

theorem W4_bias (c : Dev nD) : W4 m ρ c (Proc.devRef .tc main_v11) = W3 m ρ c (Proc.devRef .tc main_v11) :=
  W4_of_ne m ρ c main_v11 (by decide)

theorem W4_src (c : Dev nD) : W4 m ρ c (Proc.devRef .tc main_arg4) = W3 m ρ c (Proc.devRef .tc main_arg4) :=
  W4_of_ne m ρ c main_arg4 (by decide)

theorem W4_dst (c : Dev nD) : W4 m ρ c (Proc.devRef .tc main_arg5) = W3 m ρ c (Proc.devRef .tc main_arg5) :=
  W4_of_ne m ρ c main_arg5 (by decide)

/-! ## Between the kernels, and at the second kernel's entry and exit -/

theorem W5_rows (c : Dev nD) : W5 m ρ c (Proc.devRef .tc main_v13)
    = Take.takeRows (W4 m ρ c (Proc.devRef .tc main_v12)) (W4 m ρ c (Proc.devRef .tc main_arg4)) :=
  take_rows (W4 m ρ c)

theorem W5_dst (c : Dev nD) : W5 m ρ c (Proc.devRef .tc main_arg5) = W4 m ρ c (Proc.devRef .tc main_arg5) :=
  take_keeps_dst (W4 m ρ c)

theorem W5_norm (c : Dev nD) : W5 m ρ c (Proc.devRef .tc main_v10) = W4 m ρ c (Proc.devRef .tc main_v10) :=
  take_keeps_norm (W4 m ρ c)

theorem W5_bias (c : Dev nD) : W5 m ρ c (Proc.devRef .tc main_v11) = W4 m ρ c (Proc.devRef .tc main_v11) :=
  take_keeps_bias (W4 m ρ c)

theorem W6_sums (c : Dev nD) : W6 m ρ c (Proc.devRef .tc main_v16)
    = aggregate (W5 m ρ c (Proc.devRef .tc main_arg5)) (W5 m ρ c (Proc.devRef .tc main_v13)) :=
  sum_rows (W5 m ρ c)

theorem W6_norm (c : Dev nD) : W6 m ρ c (Proc.devRef .tc main_v10) = W5 m ρ c (Proc.devRef .tc main_v10) :=
  sum_keeps_norm (W5 m ρ c)

theorem W6_bias (c : Dev nD) : W6 m ρ c (Proc.devRef .tc main_v11) = W5 m ρ c (Proc.devRef .tc main_v11) :=
  sum_keeps_bias (W5 m ρ c)

theorem W7_out (c : Dev nD) : W7 m ρ c (Proc.devRef .tc main_v17) = (dat1 (V6 m ρ) c).arrAt 3 cfg1.N :=
  W7_arr m ρ c 3

end Cert.KernelIdeal.Fold

end
-- ==== Proof.ScaledProduct.lean ====
/-
  The first kernel's output array as ONE function of its three operand arrays: entry (r, q) is the inner product of
  row r of the features with column q of the weights, scaled by row r's normalisation factor. Each of the five grid
  points writes the 10000 rows of its own block, and the blocks tile the 50000 rows.
-/
import proofs.«422145_j6794638262306_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx

/-- Entry (r, q) of the scaled product: (Σ_k x[r, k] · w[k, q]) · n[r, 0]. -/
def scaled (x : (⟨S50000x64, .f32⟩ : BufTy).Contents (Elt Ideal)) (w : (⟨S64x64, .f32⟩ : BufTy).Contents (Elt Ideal))
    (n : (⟨S50000x1, .f32⟩ : BufTy).Contents (Elt Ideal)) : (⟨S50000x64, .f32⟩ : BufTy).Contents (Elt Ideal) :=
  fun i => (∑ k : Fin 64, x (ix2 (i 0) k) * w (ix2 k (i 1))) * n (ix2 (i 0) (0 : Fin 1))

variable (V : (c : Dev nD) → (b : Ref sig .tc) → Buf (Elt Ideal) ((c : Thread nD τ).loc b))

/-! ## The body's payload at an entry -/

/-- The contraction's operand indices, axis by axis: the left operand is read at (row of the entry, contraction
    coordinate), the right one at (contraction coordinate, column of the entry). -/
theorem lhs_axis0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
theorem lhs_axis1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem rhs_axis0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem rhs_axis1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- The block product at entry (p, q): the sum over the contraction coordinate of the products of the two operands'
    entries. -/
theorem matmul_entry (a : FVec Ideal S10000x64 .bf16) (b : FVec Ideal S64x64 .bf16) (p : Fin 10000) (q : Fin 64) :
    FloatOps.matmul dot_S10000x64_S64x64_S10000x64_1_0_0_1_n_n none a b (constant (F := Ideal) S10000x64 .f32 0x00000000#32) (ix2 p q)
      = ∑ k : Fin 64, a (ix2 p k) * b (ix2 k q) := by
  rw [Ideal.matmul_constant_zero_apply,
    ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 p q)
      ((ValueIdx.contrEquiv1 dot_S10000x64_S64x64_S10000x64_1_0_0_1_n_n 64 rfl rfl).symm k) = ix2 p k := funext fun a => Fin.ext (by
    match a with
    | ⟨0, _⟩ => exact lhs_axis0 _ _
    | ⟨1, _⟩ => exact (lhs_axis1 _ _).trans hk)
  have er : dot_S10000x64_S64x64_S10000x64_1_0_0_1_n_n.rhsIdx (ix2 p q)
      ((ValueIdx.contrEquiv1 dot_S10000x64_S64x64_S10000x64_1_0_0_1_n_n 64 rfl rfl).symm k) = ix2 k q := funext fun a => Fin.ext (by
    match a with
    | ⟨0, _⟩ => exact (rhs_axis0 _ _).trans hk
    | ⟨1, _⟩ => exact rhs_axis1 _ _)
  rw [el, er]

/-- The stored value at entry (p, q) of a block: the block product there, times the factor of row p. -/
theorem payload_entry (x0 : Vec Ideal S10000x64 .f32) (x1 : Vec Ideal S64x64 .f32) (x2 : Vec Ideal S10000x1 .f32)
    (p : Fin 10000) (q : Fin 64) :
    k0_pay1 x0 x1 x2 (ix2 p q) = (∑ k : Fin 64, x0 (ix2 p k) * x1 (ix2 k q)) * x2 (ix2 p (0 : Fin 1)) := by
  unfold k0_pay1
  rw [mulf_apply, shapeCast_self]
  rw [broadcastTo_apply x2 broadcasts_S10000x1_S10000x64 (ix2 p q) (ix2 p (0 : Fin 1)) (fun a => by
    match a with
    | ⟨0, _⟩ => show p.val = if (10000 : Nat) = 1 then 0 else p.val; rw [if_neg (by decide)]
    | ⟨1, _⟩ => show (0 : Nat) = if (1 : Nat) = 1 then 0 else q.val; rw [if_pos rfl])]
  exact congrArg (· * x2 (ix2 p (0 : Fin 1))) (matmul_entry _ _ p q)

/-! ## From the blocks to the array -/

/-- The body's one store and its three loads sit at offset zero of their buffers. -/
theorem zero_off : (![0, 0] : Fin 2 → Nat) = fun _ => 0 := funext fun a => by
  match a with
  | ⟨0, _⟩ => rfl
  | ⟨1, _⟩ => rfl

/-- The index maps, decided over the five grid points: at point t the features', the factors' and the output's blocks
    are block t along the rows and block 0 along the columns; the weights' block is the whole array. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of the scaled product of the arrays the region was entered with: entry (p, q)
    of the block is entry (10000·t + p, q) of the array, and the three operand blocks are read at the same rows. -/
theorem written_block (c : Dev nD) (t : Fin cfg0.N) :
    (dat0 (F := Ideal) V c).flushed 3 t
      = ((cfg0.win 3).blk t).view.read (Elt Ideal) (scaled (V c main_arg1) (V c main_arg2) (V c main_v10)) := by
  show (cfg0.win 3).cut (grid0.coords t) ((dat0 V c).after 3 t) = _
  rw [after0_3]
  unfold out0_3
  rw [View.canon_unit_zero zero_off]
  simp only [View.ld_unit_zero (S := S10000x64) zero_off, View.ld_unit_zero (S := S64x64) zero_off,
    View.ld_unit_zero (S := S10000x1) zero_off]
  obtain ⟨e00, e01, e10, e11, e20, e21, e30, e31⟩ := index_maps t
  funext j
  obtain ⟨p, q, rfl⟩ : ∃ (p : Fin 10000) (q : Fin 64), j = ix2 p q := ⟨j 0, j 1, eq_ix2 j⟩
  show k0_pay1 (iblk0 V c 0 t) (iblk0 V c 1 t) (iblk0 V c 2 t) (ix2 p q)
    = scaled (V c main_arg1) (V c main_arg2) (V c main_v10) (((cfg0.win 3).blk t).view.emb (ix2 p q))
  rw [payload_entry]
  have h0 : ∀ k : Fin 64, ((cfg0.win 0).blk t).view.emb (ix2 p k)
      = ix2 ((((cfg0.win 3).blk t).view.emb (ix2 p q)) 0) k := fun k => by
    funext a; apply Fin.ext
    match a with
    | ⟨0, _⟩ => show win0_0.index t (0 : Fin 2) * 10000 + 1 * p.val = win0_3.index t (0 : Fin 2) * 10000 + 1 * p.val; omega
    | ⟨1, _⟩ => show win0_0.index t (1 : Fin 2) * 64 + 1 * k.val = k.val; omega
  have h1 : ∀ k : Fin 64, ((cfg0.win 1).blk t).view.emb (ix2 k q)
      = ix2 k ((((cfg0.win 3).blk t).view.emb (ix2 p q)) 1) := fun k => by
    funext a; apply Fin.ext
    match a with
    | ⟨0, _⟩ => show win0_1.index t (0 : Fin 2) * 64 + 1 * k.val = k.val; omega
    | ⟨1, _⟩ => show win0_1.index t (1 : Fin 2) * 64 + 1 * q.val = win0_3.index t (1 : Fin 2) * 64 + 1 * q.val; omega
  have h2 : ((cfg0.win 2).blk t).view.emb (ix2 p (0 : Fin 1))
      = ix2 ((((cfg0.win 3).blk t).view.emb (ix2 p q)) 0) (0 : Fin 1) := by
    funext a; apply Fin.ext
    match a with
    | ⟨0, _⟩ => show win0_2.index t (0 : Fin 2) * 10000 + 1 * p.val = win0_3.index t (0 : Fin 2) * 10000 + 1 * p.val; omega
    | ⟨1, _⟩ => show win0_2.index t (1 : Fin 2) * 1 + 1 * 0 = 0; omega
  have rows : ∀ (X : (⟨S50000x64, .f32⟩ : BufTy).Contents (Elt Ideal)) (W : (⟨S64x64, .f32⟩ : BufTy).Contents (Elt Ideal))
      (N : (⟨S50000x1, .f32⟩ : BufTy).Contents (Elt Ideal)),
      (∑ k : Fin 64, X (((cfg0.win 0).blk t).view.emb (ix2 p k)) * W (((cfg0.win 1).blk t).view.emb (ix2 k q)))
          * N (((cfg0.win 2).blk t).view.emb (ix2 p (0 : Fin 1)))
        = scaled X W N (((cfg0.win 3).blk t).view.emb (ix2 p q)) := fun X W N => by
    unfold scaled
    rw [h2]
    exact congrArg (· * _) (Finset.sum_congr rfl fun k _ => congrArg₂ (· * ·) (congrArg X (h0 k)) (congrArg W (h1 k)))
  exact rows (V c main_arg1) (V c main_arg2) (V c main_v10)

/-- An index of the output array is in point t's block iff each coordinate is in the block's range on its axis. -/
theorem in_block (t : Fin cfg0.N) (i : S50000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v12).slice (win0_3.rect t)).set ↔ _
  rw [View.set_slice_whole, Rect.mem_set_unit]
  exact Iff.rfl

/-- Every entry of the output array is written: row r lies in the block of point r / 10000, and a block spans all 64
    columns. -/
theorem every_entry_written (i : S50000x64.Idx) :
    ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 5 := N_0
  obtain ⟨t, ht⟩ : ∃ t : Fin cfg0.N, t.val = (i 0).val / 10000 := ⟨⟨(i 0).val / 10000, by omega⟩, rfl⟩
  obtain ⟨-, -, -, -, -, -, e30, e31⟩ := index_maps t
  refine ⟨t, flush0_3 t, (in_block t i).mpr fun a => ?_⟩
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 64 ≤ (i 1).val ∧ (i 1).val < win0_3.index t (1 : Fin 2) * 64 + 64
    omega

/-- After the first region its output array holds the scaled product of the arrays the region was entered with. -/
theorem array_eq (c : Dev nD) :
    (dat0 (F := Ideal) V c).arrAt 3 cfg0.N = scaled (V c main_arg1) (V c main_arg2) (V c main_v10) :=
  (dat0 (F := Ideal) V c).arrAt_eq_of_cover 3 (scaled (V c main_arg1) (V c main_arg2) (V c main_v10))
    (fun t _ => written_block V c t) every_entry_written

end Cert.KernelIdeal.Region0

end
-- ==== Proof.Activation.lean ====
/-
  The second kernel's output array as ONE function of its three operand arrays: entry (r, q) is the smooth
  activation of  a[r, q] · n[r, 0] + b[0, q],  written with the body's own operations. Each of the five grid points
  writes the 10000 rows of its own block, and the blocks tile the 50000 rows.
-/
import proofs.«422145_j6794638262306_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx

variable {F : FTy → Type} [FloatOps F]

/-- One entry of the second kernel, from the aggregated entry `a`, the row's factor `n` and the column's bias `b`:
    with h = a · n + b and d = h − 0, it is  h + 0  where d ≠ d, and  max(h, 0) + log1p(exp(0 − |d|))  elsewhere. -/
def actEntry (a n b : F .f32) : F .f32 :=
  let z : F .f32 := Scalar.ofBits .f32 0x00000000#32
  let h := FloatOps.addf (FloatOps.mulf a n) b
  let d := FloatOps.subf h z
  Scalar.select (FloatOps.cmpf .one d d) (FloatOps.addf h z)
    (FloatOps.addf (FloatOps.maximumf h z) (FloatOps.log1p (FloatOps.exp (FloatOps.subf z (FloatOps.absf d)))))

/-- The array of those entries. -/
def activated (a : (⟨S50000x64, .f32⟩ : BufTy).Contents (Elt F)) (n : (⟨S50000x1, .f32⟩ : BufTy).Contents (Elt F))
    (b : (⟨S1x64, .f32⟩ : BufTy).Contents (Elt F)) : (⟨S50000x64, .f32⟩ : BufTy).Contents (Elt F) :=
  fun i => actEntry (a i) (n (ix2 (i 0) (0 : Fin 1))) (b (ix2 (0 : Fin 1) (i 1)))

/-! ## One entry of the block the body stores -/

/-- The zero offsets of a whole-buffer access, as the constant function. -/
theorem zero_offsets : (![0, 0] : Fin 2 → Nat) = fun _ => 0 := funext fun a => by fin_cases a <;> rfl

/-- A column `[a, 1]` broadcast to `[a, b]` reads, at `(p, c)`, the column's entry of row `p`. -/
theorem broadcastTo_column_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (p, q) of the stored block is the activation of the block's entry (p, q), the column's entry of row p and
    the row's entry of column q. -/
theorem payload_entry (x0 : Vec F S10000x64 .f32) (x1 : Vec F S10000x1 .f32) (x2 : Vec F S1x64 .f32)
    (p : Fin 10000) (q : Fin 64) :
    k1_pay1 x0 x1 x2 (ix2 p q) = actEntry (x0 (ix2 p q)) (x1 (ix2 p (0 : Fin 1))) (x2 (ix2 (0 : Fin 1) q)) := by
  have e0 : shapeCast S10000x64 x0 shapeCasts_S10000x64_S10000x64 (ix2 p q) = x0 (ix2 p q) :=
    congrFun (shapeCast_self x0 _) _
  have e1 : broadcastTo S10000x64 (shapeCast S10000x1 x1 shapeCasts_S10000x1_S10000x1) broadcasts_S10000x1_S10000x64 (ix2 p q)
      = x1 (ix2 p (0 : Fin 1)) := by
    rw [shapeCast_self]; exact broadcastTo_column_apply x1 _ p q
  have e2 : broadcastTo S10000x64 (shapeCast S1x64 x2 shapeCasts_S1x64_S1x64) broadcasts_S1x64_S10000x64 (ix2 p q)
      = x2 (ix2 (0 : Fin 1) q) := by
    rw [shapeCast_self]; exact broadcastTo_1b_ab_apply x2 _ p q
  rw [← e0, ← e1, ← e2]
  rfl

section Blocks

/-! ## From the five blocks to the array -/

variable (V : (c : Dev nD) → (b : Ref sig .tc) → Buf (Elt F) ((c : Thread nD τ).loc b))

/-- The windows' index maps, decided over the five points: the three operand windows' blocks sit where the output's
    block does on the row axis (the bias row's block is the whole row), and the output's block indices are the
    point's number on the row axis and zero on the column axis. -/
theorem block_indices : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- What point `t` writes back is block `t` of the activated array of the arrays the region was entered with. -/
theorem flushed_eq (c : Dev nD) (t : Fin cfg1.N) :
    (dat1 (F := F) V c).flushed 3 t
      = ((cfg1.win 3).blk t).view.read (Elt F) (activated (V c main_v16) (V c main_v10) (V c main_v11)) := by
  show (cfg1.win 3).cut (grid1.coords t) ((dat1 V c).after 3 t) = _
  rw [after1_3]
  unfold out1_3
  rw [View.canon_unit_zero zero_offsets]
  simp only [View.ld_unit_zero (S := S10000x64) zero_offsets, View.ld_unit_zero (S := S10000x1) zero_offsets,
    View.ld_unit_zero (S := S1x64) zero_offsets]
  obtain ⟨e0, e1, e2, e3, e4, e5, e6, e7⟩ := block_indices t
  funext j
  obtain ⟨p, q, rfl⟩ : ∃ (p : Fin 10000) (q : Fin 64), (j : S10000x64.Idx) = ix2 p q := ⟨j 0, j 1, eq_ix2 j⟩
  show k1_pay1 (iblk1 V c 0 t) (iblk1 V c 1 t) (iblk1 V c 2 t) (ix2 p q)
    = activated (V c main_v16) (V c main_v10) (V c main_v11) (((cfg1.win 3).blk t).view.emb (ix2 p q))
  refine (payload_entry _ _ _ p q).trans ?_
  have hp : p.val < 10000 := p.isLt
  have hq : q.val < 64 := q.isLt
  -- the aggregated array's block is read where the output's block is written
  have h0 : ((cfg1.win 0).blk t).view.emb (ix2 p q) = ((cfg1.win 3).blk t).view.emb (ix2 p q) := by
    funext a; apply Fin.ext
    match a with
    | ⟨0, _⟩ => show win1_0.index t (0 : Fin 2) * 10000 + 1 * p.val = win1_3.index t (0 : Fin 2) * 10000 + 1 * p.val; omega
    | ⟨1, _⟩ => show win1_0.index t (1 : Fin 2) * 64 + 1 * q.val = win1_3.index t (1 : Fin 2) * 64 + 1 * q.val; omega
  -- the column of factors is read at the output's row, in its one column
  have h1 : ((cfg1.win 1).blk t).view.emb (ix2 p (0 : Fin 1))
      = ix2 ((((cfg1.win 3).blk t).view.emb (ix2 p q)) 0) (0 : Fin 1) := by
    funext a; apply Fin.ext
    match a with
    | ⟨0, _⟩ => show win1_1.index t (0 : Fin 2) * 10000 + 1 * p.val = win1_3.index t (0 : Fin 2) * 10000 + 1 * p.val; omega
    | ⟨1, _⟩ => show win1_1.index t (1 : Fin 2) * 1 + 1 * 0 = 0; omega
  -- the bias row is read at the output's column, in its one row
  have h2 : ((cfg1.win 2).blk t).view.emb (ix2 (0 : Fin 1) q)
      = ix2 (0 : Fin 1) ((((cfg1.win 3).blk t).view.emb (ix2 p q)) 1) := by
    funext a; apply Fin.ext
    match a with
    | ⟨0, _⟩ => show win1_2.index t (0 : Fin 2) * 1 + 1 * 0 = 0; omega
    | ⟨1, _⟩ => show win1_2.index t (1 : Fin 2) * 64 + 1 * q.val = win1_3.index t (1 : Fin 2) * 64 + 1 * q.val; omega
  show actEntry (V c main_v16 (((cfg1.win 0).blk t).view.emb (ix2 p q)))
      (V c main_v10 (((cfg1.win 1).blk t).view.emb (ix2 p (0 : Fin 1))))
      (V c main_v11 (((cfg1.win 2).blk t).view.emb (ix2 (0 : Fin 1) q)))
    = actEntry (V c main_v16 (((cfg1.win 3).blk t).view.emb (ix2 p q)))
      (V c main_v10 (ix2 ((((cfg1.win 3).blk t).view.emb (ix2 p q)) 0) (0 : Fin 1)))
      (V c main_v11 (ix2 (0 : Fin 1) ((((cfg1.win 3).blk t).view.emb (ix2 p q)) 1)))
  rw [h0, h1, h2]
  rfl

/-- An index of the array is in point `t`'s block iff each coordinate is in the block's range on its axis. -/
theorem mem_block (t : Fin cfg1.N) (i : S50000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v17).slice (win1_3.rect t)).set ↔ _
  rw [View.set_slice_whole, Rect.mem_set_unit]
  exact Iff.rfl

/-- Every index of the array is in some point's block: row `r` is in the block of point `r / 10000`. -/
theorem covered (i : S50000x64.Idx) :
    ∃ t : Fin cfg1.N, (cfg1.win 3).flush t = true ∧ i ∈ ((cfg1.win 3).blk t).view.set := by
  have hi0 : (i 0).val < 50000 := (i 0).isLt
  have hi1 : (i 1).val < 64 := (i 1).isLt
  have hN : cfg1.N = 5 := N_1
  obtain ⟨t, ht⟩ : ∃ t : Fin cfg1.N, t.val = (i 0).val / 10000 := ⟨⟨(i 0).val / 10000, by rw [hN]; omega⟩, rfl⟩
  obtain ⟨-, -, -, -, -, -, e6, e7⟩ := block_indices t
  refine ⟨t, flush1_3 t, ?_⟩
  rw [mem_block]
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 64 ≤ (i 1).val ∧ (i 1).val < win1_3.index t (1 : Fin 2) * 64 + 64
    omega

end Blocks

variable (V : (c : Dev nD) → (b : Ref sig .tc) → Buf (Elt F) ((c : Thread nD τ).loc b))

/-- After the second region its output array holds the activated array of the arrays the region was entered with. -/
theorem array_eq (c : Dev nD) :
    (dat1 (F := F) V c).arrAt 3 cfg1.N = activated (V c main_v16) (V c main_v10) (V c main_v11) := by
  exact (dat1 V c).arrAt_eq_of_cover 3 (activated (V c main_v16) (V c main_v10) (V c main_v11))
    (fun t _ => flushed_eq V c t) covered

end Cert.KernelIdeal.Region1

end
-- ==== Proof.IndexRange.lean ====
/-
  What the precondition says about the source indices, and what it buys: every wrapped index lies inside the table,
  so the gather's fill never fires and the gathered rows are the plain gather at the wrapped indices.
-/
import proofs.«422145_j6794638262306_1_alg».proof.Proof.TakeDefs
import proofs.«422145_j6794638262306_1_alg».proof.Pre_finite_inputs
import proofs.«422145_j6794638262306_1_alg».proof.Proof.Gen.Pre_finite_inputs
import Idealize.ShloMosaic.Lib.ReduceAll
import Idealize.ShloMosaic.Lib.StableHlo.Predicate

noncomputable section

namespace Cert.KernelIdeal.Take

open Cert.KernelIdeal Cert.KernelIdeal.Facts₀ Cert.KernelIdeal.Facts Idealize.ShloMosaic

variable {F : FTy → Type} [FloatOps F]

/-- Every source index addresses a row of the 50000-row table, counting from the front or (negative) from the end. -/
def SrcInTable (src : IVec S1600000 32) : Prop :=
  ∀ e : S1600000.Idx, -50000 ≤ (src e).toInt ∧ (src e).toInt < 50000

/-- The precondition's two index conjuncts, read back entry by entry. -/
theorem srcInTable_of_pre (a0 : FVec F Cert.Pre_finite_inputs.S1 .f32) (a1 : FVec F Cert.Pre_finite_inputs.S50000x64 .f32)
    (a2 : FVec F Cert.Pre_finite_inputs.S64x64 .f32) (a3 : FVec F Cert.Pre_finite_inputs.S64 .f32)
    (src dst : IVec Cert.Pre_finite_inputs.S1600000 32)
    (h : Cert.Pre_finite_inputs.fn (F := F) a0 a1 a2 a3 src dst = fun _ => 1#1) : SrcInTable src := by
  haveI : Subsingleton Cert.Pre_finite_inputs.S_.Idx := ⟨fun a b => funext fun d => d.elim0⟩
  have e := congrFun h (fun a => a.elim0)
  dsimp only [Cert.Pre_finite_inputs.fn, Cert.Pre_finite_inputs.fn_part1] at e
  -- the conjunction's last two conjuncts: all (src ≥ -50000), all (src < 50000)
  obtain ⟨e1, hlt⟩ := IntOp.andi_eq_one.1 e
  obtain ⟨-, hge⟩ := IntOp.andi_eq_one.1 e1
  intro i
  have g := IntOp.cmpi_sge.1 (Host.reduce_andi_all _ _ _ _ _ hge i)
  have l := IntOp.cmpi_slt.1 (Host.reduce_andi_all _ _ _ _ _ hlt i)
  change (4294917296#32 : BitVec 32).toInt ≤ (src i).toInt at g
  change (src i).toInt < (50000#32 : BitVec 32).toInt at l
  rw [show (4294917296#32 : BitVec 32).toInt = -50000 from by decide] at g
  rw [show (50000#32 : BitVec 32).toInt = 50000 from by decide] at l
  exact ⟨g, l⟩

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- An index in [-50000, 50000), wrapped (50000 added when negative), lies in [0, 49999]: the sum does not overflow. -/
theorem wrap_word_range (w : BitVec 32) (h : -50000 ≤ w.toInt ∧ w.toInt < 50000) :
    0 ≤ (Scalar.select (IntOp.cmpi .slt w 0#32) (IntOp.addi w 50000#32) w).toInt ∧
      (Scalar.select (IntOp.cmpi .slt w 0#32) (IntOp.addi w 50000#32) w).toInt ≤ 49999 := by
  obtain ⟨h1, h2⟩ := h
  have h0 : (0#32 : BitVec 32).toInt = 0 := by decide
  have h5 : (50000#32 : BitVec 32).toInt = 50000 := by decide
  unfold Scalar.select
  by_cases hc : IntOp.cmpi .slt w 0#32 = 1
  · rw [if_pos hc]
    have hc' : IntOp.cmpi .slt w 0#32 = 1#1 := hc
    rw [IntOp.cmpi_slt, h0] at hc'
    have e : (IntOp.addi w 50000#32).toInt = w.toInt + 50000 := by
      rw [IntOp.addi, BitVec.toInt_add, h5]
      exact Int.bmod_eq_of_le (by omega) (by omega)
    rw [e]; omega
  · rw [if_neg hc]
    have hc' : ¬ IntOp.cmpi .slt w 0#32 = 1#1 := hc
    rw [IntOp.cmpi_slt, h0] at hc'
    omega

/-- So both compares of the in-range test give 1 on the wrapped index, and so does their conjunction. -/
theorem wrap_word_inRange (w : BitVec 32) (h : -50000 ≤ w.toInt ∧ w.toInt < 50000) :
    IntOp.andi (IntOp.cmpi .sge (Scalar.select (IntOp.cmpi .slt w 0#32) (IntOp.addi w 50000#32) w) 0#32)
      (IntOp.cmpi .sle (Scalar.select (IntOp.cmpi .slt w 0#32) (IntOp.addi w 50000#32) w) 49999#32) = 1#1 := by
  obtain ⟨lo, hi⟩ := wrap_word_range w h
  refine IntOp.andi_eq_one.2 ⟨IntOp.cmpi_sge.2 ?_, IntOp.cmpi_sle.2 ?_⟩
  · rw [show (0#32 : BitVec 32).toInt = 0 from by decide]; exact lo
  · rw [show (49999#32 : BitVec 32).toInt = 49999 from by decide]; exact hi

/-- With every index in the table, the in-range test holds on every edge. -/
theorem inRange_eq_ones (src : (⟨S1600000, .i32⟩ : BufTy).Contents (Elt F)) (h : SrcInTable src) :
    inRange (F := F) src = fun _ => 1#1 := by
  funext e
  unfold inRange
  -- the reduction over the column's one entry is a left fold from 1; every folded word is 1
  rw [Host.reduce_eq_foldl]
  exact foldl_andi_ones _ (fun i => wrap_word_inRange (src _) (h _)) _

/-- So the fill never fires: the gathered rows are the gather at the wrapped indices. -/
theorem takeRows_eq_gather (tbl : (⟨S50000x64, .f32⟩ : BufTy).Contents (Elt F)) (src : (⟨S1600000, .i32⟩ : BufTy).Contents (Elt F))
    (h : SrcInTable src) :
    takeRows (F := F) tbl src = Host.gather gather_S50000x64_S1600000x1_S1600000x64_1_0_n_n_0_1_164 tbl (wrapIdx (F := F) src) := by
  funext j
  unfold takeRows
  rw [inRange_eq_ones src h]
  rfl

end Cert.KernelIdeal.Take

end
-- ==== Proof.KernelValue.lean ====
/-
  The kernel program's result as ONE function of its arguments, over the extended reals. Reading the boundaries in
  order: the factor column n = normCol(dst); the first kernel leaves h = scaled(x, w, n); the host gathers the rows of
  h at the source indices — with every index inside the table the fill never fires, so these are the plain gather at
  the wrapped indices — and sums them per destination node; the second kernel leaves activated(sums, n, bias row).
-/
import proofs.«422145_j6794638262306_1_alg».proof.Proof.HostSide
import proofs.«422145_j6794638262306_1_alg».proof.Proof.ScaledProduct
import proofs.«422145_j6794638262306_1_alg».proof.Proof.Activation
import proofs.«422145_j6794638262306_1_alg».proof.Proof.IndexRange

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-- The rows the host gathers between the kernels, as a function of the arguments. -/
def messages (x : (⟨S50000x64, .f32⟩ : BufTy).Contents (Elt Ideal)) (w : (⟨S64x64, .f32⟩ : BufTy).Contents (Elt Ideal))
    (src dst : (⟨S1600000, .i32⟩ : BufTy).Contents (Elt Ideal)) : (⟨S1600000x64, .f32⟩ : BufTy).Contents (Elt Ideal) :=
  Host.gather gather_S50000x64_S1600000x1_S1600000x64_1_0_n_n_0_1_164 (Region0.scaled x w (normCol (F := Ideal) dst)) (Take.wrapIdx (F := Ideal) src)

/-- The whole program's result as a function of the arguments. -/
def result (x : (⟨S50000x64, .f32⟩ : BufTy).Contents (Elt Ideal)) (w : (⟨S64x64, .f32⟩ : BufTy).Contents (Elt Ideal))
    (b : (⟨S64, .f32⟩ : BufTy).Contents (Elt Ideal)) (src dst : (⟨S1600000, .i32⟩ : BufTy).Contents (Elt Ideal)) :
    (⟨S50000x64, .f32⟩ : BufTy).Contents (Elt Ideal) :=
  Region1.activated (F := Ideal) (aggregate (F := Ideal) dst (messages x w src dst)) (normCol (F := Ideal) dst) (biasRow (F := Ideal) b)

/-- The second kernel is entered with the per-node sums of the gathered rows of the first kernel's output. -/
theorem entry_sums (c : Dev nD) (h : Take.SrcInTable (m ((c : Thread nD τ).loc main_arg4))) :
    W6 m ρ c (Proc.devRef .tc main_v16)
      = aggregate (F := Ideal) (m ((c : Thread nD τ).loc main_arg5))
          (messages (m ((c : Thread nD τ).loc main_arg1)) (m ((c : Thread nD τ).loc main_arg2))
            (m ((c : Thread nD τ).loc main_arg4)) (m ((c : Thread nD τ).loc main_arg5))) := by
  rw [W6_sums, W5_dst, W5_rows, W4_dst, W3_dst, W4_src, W3_src, W4_out, Region0.array_eq (V3 m ρ) c]
  show aggregate _ (Take.takeRows (Region0.scaled (W3 m ρ c (Proc.devRef .tc main_arg1)) (W3 m ρ c (Proc.devRef .tc main_arg2))
    (W3 m ρ c (Proc.devRef .tc main_v10))) _) = _
  rw [W3_x, W3_w, W3_norm, Take.takeRows_eq_gather _ _ h]
  rfl

theorem entry_norm (c : Dev nD) : W6 m ρ c (Proc.devRef .tc main_v10) = normCol (F := Ideal) (m ((c : Thread nD τ).loc main_arg5)) := by
  rw [W6_norm, W5_norm, W4_norm, W3_norm]

theorem entry_bias (c : Dev nD) : W6 m ρ c (Proc.devRef .tc main_v11) = biasRow (F := Ideal) (m ((c : Thread nD τ).loc main_arg3)) := by
  rw [W6_bias, W5_bias, W4_bias, W3_bias]

/-- THE RESULT: with every source index inside the table, the result buffer ends at `result` of the arguments. -/
theorem result_eq (c : Dev nD) (h : Take.SrcInTable (m ((c : Thread nD τ).loc main_arg4))) :
    W7 m ρ c (Proc.devRef .tc main_v17)
      = result (m ((c : Thread nD τ).loc main_arg1)) (m ((c : Thread nD τ).loc main_arg2)) (m ((c : Thread nD τ).loc main_arg3))
          (m ((c : Thread nD τ).loc main_arg4)) (m ((c : Thread nD τ).loc main_arg5)) := by
  rw [W7_out, Region1.array_eq (V6 m ρ) c]
  show Region1.activated (W6 m ρ c (Proc.devRef .tc main_v16)) (W6 m ρ c (Proc.devRef .tc main_v10)) (W6 m ρ c (Proc.devRef .tc main_v11)) = _
  rw [entry_sums m ρ c h, entry_norm, entry_bias]
  rfl

end Cert.KernelIdeal.Fold

end
-- ==== Proof.BridgeNorm.lean ====
/-
  The first half of the comparison with the reference. The reference computes the same normalisation factors by the
  same operations, lays them out as a column by a broadcast where the kernel's host side reshapes (the same column),
  and multiplies ONE whole matrix product by it, where the first kernel multiplies block by block: entry (r, q) of
  both is (Σ_k x[r, k] · w[k, q]) · n[r].
-/
import proofs.«422145_j6794638262306_1_alg».proof.Proof.HostDefs
import proofs.«422145_j6794638262306_1_alg».proof.Proof.ScaledProduct
import proofs.«422145_j6794638262306_1_alg».proof.Proof.RefRead
import Idealize.ShloMosaic.Lib.Pipeline.Value
import Idealize.ShloMosaic.Lib.ValueIdx
import Idealize.ShloMosaic.Lib.ValueLayout

noncomputable section

namespace Cert.Bridge

open Idealize.ShloMosaic

/-- The factors are the reference's: the same operations of the destination indices (stated for any float family). -/
theorem normVec_eq {F : FTy → Type} [FloatOps F] (dst : (⟨Cert.KernelIdeal.S1600000, .i32⟩ : BufTy).Contents (Elt F)) :
    Cert.KernelIdeal.Fold.normVec (F := F) dst = Cert.ReferenceIdeal.ReadP.val_main_v9 (F := F) dst := by
  -- both sides unfold to the same composition: a select on "degree > 0" between rsqrt(max(degree, 1)) and 0, the degree
  -- the same scatter-add of ones; the two programs' shape and dimension records have equal fields
  rfl

/-- The column reads, at row r, the factor of node r. -/
theorem normCol_apply {F : FTy → Type} [FloatOps F] (dst : (⟨Cert.KernelIdeal.S1600000, .i32⟩ : BufTy).Contents (Elt F)) (r : Fin 50000) :
    Cert.KernelIdeal.Fold.normCol (F := F) dst (ValueIdx.ix2 r (0 : Fin 1)) = Cert.KernelIdeal.Fold.normVec (F := F) dst (ValueIdx.ix1 r) := by
  unfold Cert.KernelIdeal.Fold.normCol
  -- a recast keeps the row-major position: (r, 0) of [50000, 1] is position r · 1 + 0, which is r of [50000]
  refine shapeCast_apply _ _ _ _ ?_
  rw [Shape.rowMajor_val_one, Shape.rowMajor_val_two]
  show r.val = r.val * 1 + 0
  omega

/-- The first kernel's scaled product is the reference's product of the whole matrix product with the broadcast column. -/
theorem scaled_eq (x : (⟨Cert.KernelIdeal.S50000x64, .f32⟩ : BufTy).Contents (Elt Ideal)) (w : (⟨Cert.KernelIdeal.S64x64, .f32⟩ : BufTy).Contents (Elt Ideal))
    (dst : (⟨Cert.KernelIdeal.S1600000, .i32⟩ : BufTy).Contents (Elt Ideal)) :
    Cert.KernelIdeal.Region0.scaled x w (Cert.KernelIdeal.Fold.normCol (F := Ideal) dst) = Cert.ReferenceIdeal.ReadP.val_main_v13 (F := Ideal) x w dst := by
  funext i
  obtain ⟨p, q, rfl⟩ : ∃ (p : Fin 50000) (q : Fin 64), i = ValueIdx.ix2 p q := ⟨i 0, i 1, ValueIdx.eq_ix2 i⟩
  -- the reference's operand indices at entry (p, q) and contraction coordinate k are (p, k) and (k, q); its broadcast
  -- column is read at row p of the factors
  have hl : ∀ k : Fin 64, Cert.ReferenceIdeal.ReadP.lidx_main_v11 (ValueIdx.ix2 p q) k = ValueIdx.ix2 p k := fun k =>
    funext fun a => Fin.ext (by match a with | ⟨0, _⟩ => rfl | ⟨1, _⟩ => rfl)
  have hr : ∀ k : Fin 64, Cert.ReferenceIdeal.ReadP.ridx_main_v11 (ValueIdx.ix2 p q) k = ValueIdx.ix2 k q := fun k =>
    funext fun a => Fin.ext (by match a with | ⟨0, _⟩ => rfl | ⟨1, _⟩ => rfl)
  have hn : Cert.ReferenceIdeal.ReadP.idx_main_v10 (Cert.ReferenceIdeal.ReadP.idx_main_v12 (ValueIdx.ix2 p q)) = ValueIdx.ix1 p :=
    funext fun a => Fin.ext (by match a with | ⟨0, _⟩ => rfl)
  rw [Cert.ReferenceIdeal.ReadP.val_main_v13_apply, Cert.ReferenceIdeal.ReadP.val_main_v11_apply,
    Cert.ReferenceIdeal.ReadP.val_main_v12_apply, Cert.ReferenceIdeal.ReadP.val_main_v10_apply, hn, ← normVec_eq,
    ← normCol_apply, Ideal.mulf_def]
  show (∑ k : Fin 64, x (ValueIdx.ix2 p k) * w (ValueIdx.ix2 k q)) * Cert.KernelIdeal.Fold.normCol (F := Ideal) dst (ValueIdx.ix2 p (0 : Fin 1)) = _
  generalize Cert.KernelIdeal.Fold.normCol (F := Ideal) dst (ValueIdx.ix2 p (0 : Fin 1)) = c
  exact congrArg (· * c) (Finset.sum_congr rfl fun k _ => by rw [hl k, hr k])

end Cert.Bridge

end
-- ==== Proof.BridgeAct.lean ====
/-
  The second half of the comparison with the reference: from equal aggregated messages, the second kernel's entry
  function is the reference's last operations, entry by entry. With h = a · n + b both compute
  max(h, 0) + log1p(exp(−|h − 0|)) behind a test d ≠ d that never fires over the extended reals (the kernel writes the
  negation as 0 − |d|).
-/
import proofs.«422145_j6794638262306_1_alg».proof.Proof.HostDefs
import proofs.«422145_j6794638262306_1_alg».proof.Proof.Activation
import proofs.«422145_j6794638262306_1_alg».proof.Proof.RefRead
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Idealize.ShloMosaic

open Idealize.ShloMosaic.ValueIdx in
/-- A vector `[a]` laid out as a column `[a, 1]` reads, at `(r, u)`, the vector's entry `r`. -/
theorem shapeCast_column_apply {α : Type} {a : ℕ} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- Over the extended reals no number differs from itself, so either spelling of the test `d ≠ d` is the zero bit. -/
theorem cmp_self_ne (d : EReal) : Ideal.cmp .one d d = 0#1 ∧ Ideal.cmp .une d d = 0#1 := by
  constructor <;> simp [Ideal.cmp]

/-- One entry at the extended reals. With h = a · n + b the kernel's entry function is the reference's chain of
    scalar operations on h: both tests `d ≠ d` are the zero bit, so both selections take the last branch
    max(h, 0) + log1p(exp(−|h − 0|)), where the kernel writes the negation as 0 − |h − 0|. -/
theorem actEntry_eq_reference (a n b : Ideal .f32) :
    Cert.KernelIdeal.Region1.actEntry (F := Ideal) a n b
      = Scalar.select
          (FloatOps.cmpf .une (FloatOps.subf (FloatOps.addf (FloatOps.mulf a n) b) (FloatOps.ofBits .f32 0x00000000#32))
            (FloatOps.subf (FloatOps.addf (FloatOps.mulf a n) b) (FloatOps.ofBits .f32 0x00000000#32)))
          (FloatOps.addf (FloatOps.addf (FloatOps.mulf a n) b) (FloatOps.ofBits .f32 0x00000000#32))
          (FloatOps.addf (FloatOps.maximumf (FloatOps.addf (FloatOps.mulf a n) b) (FloatOps.ofBits .f32 0x00000000#32))
            (FloatOps.hostUnary .log1p (FloatOps.hostUnary .exp (FloatOps.hostNegf (FloatOps.hostAbsf
              (FloatOps.subf (FloatOps.addf (FloatOps.mulf a n) b) (FloatOps.ofBits .f32 0x00000000#32))))))) := by
  unfold Cert.KernelIdeal.Region1.actEntry
  simp only [Ideal.cmpf_def, (cmp_self_ne _).1, (cmp_self_ne _).2, ValueIdx.select_zero]
  simp only [Ideal.hostUnary_log1p_def, Ideal.hostUnary_exp_def, Ideal.hostNegf_def, Ideal.hostAbsf_def, Ideal.log1p_def,
    Ideal.exp_def, Ideal.negf_def, Ideal.subf_def, Ideal.ofBits_def, Ideal.ofBits_zero_f32, zero_sub]

/-- Given that the factors are the reference's (`hn`), the activated array of the reference's aggregated messages,
    the factor column and the bias row is the reference's result. -/
theorem activated_eq (x1 : (⟨Cert.KernelIdeal.S50000x64, .f32⟩ : BufTy).Contents (Elt Ideal)) (x2 : (⟨Cert.KernelIdeal.S64x64, .f32⟩ : BufTy).Contents (Elt Ideal))
    (x3 : (⟨Cert.KernelIdeal.S64, .f32⟩ : BufTy).Contents (Elt Ideal)) (x4 x5 : (⟨Cert.KernelIdeal.S1600000, .i32⟩ : BufTy).Contents (Elt Ideal))
    (hn : Cert.KernelIdeal.Fold.normVec (F := Ideal) x5 = Cert.ReferenceIdeal.ReadP.val_main_v9 (F := Ideal) x5) :
    Cert.KernelIdeal.Region1.activated (F := Ideal) (Cert.ReferenceIdeal.ReadP.val_main_v23 (F := Ideal) x1 x2 x4 x5)
        (Cert.KernelIdeal.Fold.normCol (F := Ideal) x5) (Cert.KernelIdeal.Fold.biasRow (F := Ideal) x3)
      = Cert.ReferenceIdeal.ReadP.val_main_v29 (F := Ideal) x1 x2 x3 x4 x5 := by
  funext i
  -- the factor column at the row of `i` is the reference's factor of that row
  have hN : Cert.KernelIdeal.Fold.normCol (F := Ideal) x5 (ValueIdx.ix2 (i 0) (0 : Fin 1))
      = Cert.ReferenceIdeal.ReadP.val_main_v9 (F := Ideal) x5
          (Cert.ReferenceIdeal.ReadP.idx_main_v10 (Cert.ReferenceIdeal.ReadP.idx_main_v24 i)) := by
    unfold Cert.KernelIdeal.Fold.normCol
    refine (shapeCast_column_apply _ _ (i 0) (0 : Fin 1)).trans ?_
    rw [hn]
    exact congrArg _ (funext fun a => Fin.ext (by match a with | ⟨0, _⟩ => rfl))
  -- the bias row at the column of `i` is the bias of that column
  have hB : Cert.KernelIdeal.Fold.biasRow (F := Ideal) x3 (ValueIdx.ix2 (0 : Fin 1) (i 1))
      = x3 (Cert.ReferenceIdeal.ReadP.idx_main_v26 (Cert.ReferenceIdeal.ReadP.idx_main_v27 i)) := by
    unfold Cert.KernelIdeal.Fold.biasRow
    refine (ValueIdx.shapeCast_a_1a_apply _ _ (0 : Fin 1) (i 1)).trans ?_
    exact congrArg _ (funext fun a => Fin.ext (by match a with | ⟨0, _⟩ => rfl))
  unfold Cert.KernelIdeal.Region1.activated
  rw [hN, hB]
  rw [Cert.ReferenceIdeal.ReadP.val_main_v29_apply, Cert.ReferenceIdeal.ReadP.val_main_call1_v4_apply, Cert.ReferenceIdeal.ReadP.val_main_call1_v6_apply,
    Cert.ReferenceIdeal.ReadP.val_main_call1_v11_apply, Cert.ReferenceIdeal.ReadP.val_main_call1_v1_apply, Cert.ReferenceIdeal.ReadP.val_main_call1_v10_apply,
    Cert.ReferenceIdeal.ReadP.val_main_call1_v9_apply, Cert.ReferenceIdeal.ReadP.val_main_call1_v8_apply, Cert.ReferenceIdeal.ReadP.val_main_call1_v7_apply,
    Cert.ReferenceIdeal.ReadP.val_main_call1_v3_apply]
  rw [Cert.ReferenceIdeal.ReadP.val_main_call1_v0_apply, Cert.ReferenceIdeal.ReadP.val_main_call1_v2_apply, Cert.ReferenceIdeal.ReadP.val_main_call1_v5_apply]
  rw [Cert.ReferenceIdeal.ReadP.val_main_call1_cst_apply, Cert.ReferenceIdeal.ReadP.val_main_v28_apply, Cert.ReferenceIdeal.ReadP.val_main_v25_apply, Cert.ReferenceIdeal.ReadP.val_main_v27_apply,
    Cert.ReferenceIdeal.ReadP.val_main_v26_apply, Cert.ReferenceIdeal.ReadP.val_main_v24_apply, Cert.ReferenceIdeal.ReadP.val_main_v10_apply]
  exact actEntry_eq_reference _ _ _

end Cert.Bridge

end
-- ==== Proof.Bridge.lean ====
/-
  The kernel program's result function is the reference's, over the extended reals.

  Piece by piece: the wrapped source indices are computed by the same integer operations on both sides; the rows
  gathered from equal tables at equal indices are equal (the gather itself is never opened); so are their per-node sums
  (the scatter-add is never opened either); and from equal sums the second kernel's entries are the reference's last
  operations (Proof/BridgeAct.lean), the table being the first kernel's scaled product on one side and the reference's
  whole matrix product times the broadcast factors on the other (Proof/BridgeNorm.lean).
-/
import proofs.«422145_j6794638262306_1_alg».proof.Proof.KernelValue
import proofs.«422145_j6794638262306_1_alg».proof.Proof.BridgeNorm
import proofs.«422145_j6794638262306_1_alg».proof.Proof.BridgeAct
import proofs.«422145_j6794638262306_1_alg».proof.Proof.RefRead

noncomputable section

namespace Cert.Bridge

open Idealize.ShloMosaic

/-- The wrapped index column is the reference's: the same compare, add and select of the source indices. -/
theorem wrapIdx_eq {F : FTy → Type} [FloatOps F] (src : (⟨Cert.KernelIdeal.S1600000, .i32⟩ : BufTy).Contents (Elt F)) :
    Cert.KernelIdeal.Take.wrapIdx (F := F) src = Cert.ReferenceIdeal.ReadP.val_main_v19 (F := F) src := by
  unfold Cert.KernelIdeal.Take.wrapIdx Cert.ReferenceIdeal.ReadP.val_main_v19 Cert.ReferenceIdeal.ReadP.val_main_v18
    Cert.ReferenceIdeal.ReadP.val_main_v17 Cert.ReferenceIdeal.ReadP.val_main_v16 Cert.ReferenceIdeal.ReadP.val_main_v15
    Cert.ReferenceIdeal.ReadP.val_main_v14 Cert.ReferenceIdeal.ReadP.val_main_c Cert.ReferenceIdeal.ReadP.val_main_c_4
  rfl

/-- Gathering is the same function on both sides: the two programs print the same dimension record. -/
theorem gather_eq {F : FTy → Type} [FloatOps F] (tbl : (⟨Cert.KernelIdeal.S50000x64, .f32⟩ : BufTy).Contents (Elt F))
    (idx : (⟨Cert.KernelIdeal.S1600000x1, .i32⟩ : BufTy).Contents (Elt F)) :
    Host.gather Cert.KernelIdeal.gather_S50000x64_S1600000x1_S1600000x64_1_0_n_n_0_1_164 tbl idx
      = Host.gather Cert.ReferenceIdeal.gather_S50000x64_S1600000x1_S1600000x64_1_0_n_n_0_1_164 tbl idx := rfl

/-- Summing rows per destination node is the same function on both sides. -/
theorem aggregate_eq {F : FTy → Type} [FloatOps F] (dst : (⟨Cert.KernelIdeal.S1600000, .i32⟩ : BufTy).Contents (Elt F))
    (rows : (⟨Cert.KernelIdeal.S1600000x64, .f32⟩ : BufTy).Contents (Elt F)) :
    Cert.KernelIdeal.Fold.aggregate (F := F) dst rows
      = Host.scatterAdd Cert.ReferenceIdeal.scatter_S50000x64_S1600000x1_S1600000x64_1_0_0_1
          (Cert.ReferenceIdeal.ReadP.val_main_v21 (F := F)) (Cert.ReferenceIdeal.ReadP.val_main_v22 (F := F) dst) rows := by
  unfold Cert.KernelIdeal.Fold.aggregate Cert.ReferenceIdeal.ReadP.val_main_v21 Cert.ReferenceIdeal.ReadP.val_main_v22
    Cert.ReferenceIdeal.ReadP.val_main_cst_5
  rfl

/-- The gathered rows are the reference's. -/
theorem messages_eq (x1 : (⟨Cert.KernelIdeal.S50000x64, .f32⟩ : BufTy).Contents (Elt Ideal)) (x2 : (⟨Cert.KernelIdeal.S64x64, .f32⟩ : BufTy).Contents (Elt Ideal))
    (x4 x5 : (⟨Cert.KernelIdeal.S1600000, .i32⟩ : BufTy).Contents (Elt Ideal)) :
    Cert.KernelIdeal.Fold.messages x1 x2 x4 x5 = Cert.ReferenceIdeal.ReadP.val_main_v20 (F := Ideal) x1 x2 x4 x5 := by
  unfold Cert.KernelIdeal.Fold.messages Cert.ReferenceIdeal.ReadP.val_main_v20
  rw [scaled_eq, wrapIdx_eq, gather_eq]

/-- THE COMPARISON: the kernel program's result function is the reference's last stage. -/
theorem result_eq_reference (x1 : (⟨Cert.KernelIdeal.S50000x64, .f32⟩ : BufTy).Contents (Elt Ideal)) (x2 : (⟨Cert.KernelIdeal.S64x64, .f32⟩ : BufTy).Contents (Elt Ideal))
    (x3 : (⟨Cert.KernelIdeal.S64, .f32⟩ : BufTy).Contents (Elt Ideal)) (x4 x5 : (⟨Cert.KernelIdeal.S1600000, .i32⟩ : BufTy).Contents (Elt Ideal)) :
    Cert.KernelIdeal.Fold.result x1 x2 x3 x4 x5 = Cert.ReferenceIdeal.ReadP.val_main_v29 (F := Ideal) x1 x2 x3 x4 x5 := by
  unfold Cert.KernelIdeal.Fold.result
  rw [messages_eq, aggregate_eq]
  exact activated_eq x1 x2 x3 x4 x5 (normVec_eq x5)

end Cert.Bridge

end
-- ==== Proof.lean ====
/-
  The certificate of a graph-convolution step: two kernels with host operations around them against one plain
  reference, equal over the extended reals under the precondition "every float input is finite and every source index
  addresses a row of the table (-50000 ≤ src < 50000)".

  The program: n = rsqrt(max(deg, 1)) per node where deg > 0 (0 elsewhere), deg the number of incoming edges;
  h = (x · w) ⊙ n row-wise (first kernel, five blocks of 10000 rows; its bf16 operands are the f32 ones over the
  reals); the rows of h are gathered at the source indices and summed per destination node (host); the result is the
  smooth activation of  sum ⊙ n + bias  (second kernel). The reference computes the same with ONE whole matrix
  product, a broadcast column and host operations throughout. The two differ in one place only: the kernel's gather
  replaces a row whose index falls outside the table by a fill word where the reference's gather clamps; both wrap a
  negative index the same way, so inside -50000 ≤ src < 50000 the fill never fires (Proof/IndexRange.lean) — that is
  the one use of the precondition. Everything else is equal for all extended-real inputs: no finiteness is used.

  The frames of the two kernel programs are the generated ones; the reference's frame is its run with the result
  dropped. `preserves` is trivial (the idealization rewrote nothing). `algebraic`: the kernel program's run with its
  result named (Proof/KernelRun.lean) ends at `Fold.result` of the arguments (Proof/KernelValue.lean, over the two
  regions' arrays: Proof/ScaledProduct.lean, Proof/Activation.lean), and that function is the reference's last stage
  (Proof/Bridge.lean).
-/
import proofs.«422145_j6794638262306_1_alg».proof.Defs
import proofs.«422145_j6794638262306_1_alg».proof.Proof.Gen.Kernel
import proofs.«422145_j6794638262306_1_alg».proof.Proof.Gen.Kernel.Skeleton
import proofs.«422145_j6794638262306_1_alg».proof.Proof.Gen.Kernel.Launch
import proofs.«422145_j6794638262306_1_alg».proof.Proof.Gen.Kernel.Points
import proofs.«422145_j6794638262306_1_alg».proof.Proof.Gen.Kernel.Frame
import proofs.«422145_j6794638262306_1_alg».proof.Proof.Gen.KernelIdeal
import proofs.«422145_j6794638262306_1_alg».proof.Proof.Gen.KernelIdeal.Skeleton
import proofs.«422145_j6794638262306_1_alg».proof.Proof.Gen.KernelIdeal.Launch
import proofs.«422145_j6794638262306_1_alg».proof.Proof.Gen.KernelIdeal.Points
import proofs.«422145_j6794638262306_1_alg».proof.Proof.Gen.KernelIdeal.Frame
import proofs.«422145_j6794638262306_1_alg».proof.Proof.Gen.ReferenceIdeal
import proofs.«422145_j6794638262306_1_alg».proof.Proof.RefRun
import proofs.«422145_j6794638262306_1_alg».proof.Proof.RefRead
import proofs.«422145_j6794638262306_1_alg».proof.Proof.KernelRun
import proofs.«422145_j6794638262306_1_alg».proof.Proof.KernelValue
import proofs.«422145_j6794638262306_1_alg».proof.Proof.Bridge
import proofs.«422145_j6794638262306_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both programs end at the kernel program's result function of the (agreeing) arguments. -/
theorem algebraic : Cert.algebraic_KernelIdeal_ReferenceIdeal := by
  intro m ρ m' ρ' hpre hagree
  refine ⟨fun c => Cert.KernelIdeal.Fold.result
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.GenRun.run_main (F := Ideal) m ρ)
    exact Cert.KernelIdeal.Fold.result_eq m ρ c (Cert.KernelIdeal.Take.srcInTable_of_pre _ _ _ _ _ _ (hpre c))
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v29_eq m' c, (hagree c).2.1, (hagree c).2.2.1, (hagree c).2.2.2.1,
      (hagree c).2.2.2.2.1, (hagree c).2.2.2.2.2]
    exact (Cert.Bridge.result_eq_reference _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
